-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S512x462 : Shape := ⟨2, ![512, 462]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512x462 : S_.BroadcastsInDim S512x462 (![] : Fin 0 → Fin S512x462.rank)
  reducesTo_S512x462_S_d0_1 : S512x462.ReducesTo [0, 1] S_

variable [Facts]

def fn {F : FTy → Type} [FloatOps F] (main_arg0 : FVec F S65536x512 .f32) (main_arg1 : FVec F S512x462 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S512x462 .f32 := Host.absf main_arg1
  let main_cst_0 : FVec F S_ .f32 := constant S_ .f32 0x7F800000#32
  let main_v5 : FVec F S512x462 .f32 := broadcastInDim S512x462 ![] bcast_S_S512x462 main_cst_0
  let main_v6 : IVec S512x462 1 := cmpf .olt main_v4 main_v5
  let main_c_1 : IVec S_ 1 := constantI S_ 1 1#1
  let main_v7 : IVec S_ 1 := (fun x v => Host.reduce IntOp.andi x v reducesTo_S512x462_S_d0_1 h_S_) main_v6 main_c_1
  let main_v8 : IVec S_ 1 := andi main_v3 main_v7
  main_v8
-- ==== Kernel.lean ====
abbrev S65536x512 : Shape := ⟨2, ![65536, 512]⟩
abbrev S512x462 : Shape := ⟨2, ![512, 462]⟩
abbrev S_ : Shape := ⟨0, ![]⟩
abbrev S512 : Shape := ⟨1, ![512]⟩
abbrev S512x1 : Shape := ⟨2, ![512, 1]⟩
abbrev S65536x462 : Shape := ⟨2, ![65536, 462]⟩
abbrev S2048x512 : Shape := ⟨2, ![2048, 512]⟩
abbrev S2048x462 : Shape := ⟨2, ![2048, 462]⟩
abbrev S2048 : Shape := ⟨1, ![2048]⟩
abbrev S2048x1 : Shape := ⟨2, ![2048, 1]⟩

abbrev nBuf : Space → Nat
  | .hbm => 14
  | .vmem => 5
  | .smem => 0
  | _ => 0

abbrev bufTy : (tb : Table) → Fin (tcTables nBuf tb) → BufTy
  | .hbm, ⟨0, _⟩ => ⟨S65536x512, .f32⟩
  | .hbm, ⟨1, _⟩ => ⟨S512x462, .f32⟩
  | .hbm, ⟨2, _⟩ => ⟨S512x462, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S_, .f32⟩
  | .hbm, ⟨7, _⟩ => ⟨S512x1, .f32⟩
  | .hbm, ⟨8, _⟩ => ⟨S512x1, .f32⟩
  | .hbm, ⟨9, _⟩ => ⟨S512x1, .f32⟩
  | .hbm, ⟨10, _⟩ => ⟨S512x462, .f32⟩
  | .hbm, ⟨11, _⟩ => ⟨S512x462, .f32⟩
  | .hbm, ⟨12, _⟩ => ⟨S512x462, .bf16⟩
  | .hbm, ⟨13, _⟩ => ⟨S65536x462, .f32⟩
  | .local _ .vmem, ⟨0, _⟩ => ⟨S2048x512, .f32⟩
  | .local _ .vmem, ⟨1, _⟩ => ⟨S2048x512, .f32⟩
  | .local _ .vmem, ⟨2, _⟩ => ⟨S512x462, .bf16⟩
  | .local _ .vmem, ⟨3, _⟩ => ⟨S2048x462, .f32⟩
  | .local _ .vmem, ⟨4, _⟩ => ⟨S2048x462, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x462 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x462 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S512x462_S512_d1 : S512x462.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x462_0_1 : S512x1.BroadcastsInDim S512x462 (![0, 1] : Fin 2 → Fin S512x462.rank)
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  shapeCasts_S2048_S2048x1 : S2048.ShapeCasts S2048x1
  broadcasts_S2048x1_S2048x512 : S2048x1.Broadcasts S2048x512
  inb_S512x462_S512x462_0_0 : ∀ a, (![0, 0] : Fin 2 → Nat) a + S512x462.size a ≤ S512x462.size a
  h_S512x462 : 0 < S512x462.numel
  shapeCasts_S512x462_S512x462 : S512x462.ShapeCasts S512x462
  inb_S2048x462_S2048x462_0_0 : ∀ a, (![0, 0] : Fin 2 → Nat) a + S2048x462.size a ≤ S2048x462.size a
  h_S2048x462 : 0 < S2048x462.numel
  dot_S2048x512_S512x462_S2048x462_1_0_0_1_n_n_wf : DotDims.WF S2048x512 S512x462 S2048x462 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x462.size a ≤ S512x462.size a
  hwx0_1 : ∀ i : grid0.Coords, EltTy.bits .bf16 = 32 ∨ (Rect.block (s := S512x462) S512x462.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x462.size a ≤ S65536x462.size a
  hwx0_2 : ∀ i : grid0.Coords, EltTy.bits .f32 = 32 ∨ (Rect.block (s := S65536x462) S2048x462.size (cc0_transform_2 i) (hinb0_2 i)).WholeWords (EltTy.packing .f32)

variable [Facts₀]

def dot_S2048x512_S512x462_S2048x462_1_0_0_1_n_n : DotDims S2048x512 S512x462 S2048x462 where
  lhsContracting := [1]
  rhsContracting := [0]
  lhsNonContracting := [0]
  rhsNonContracting := [1]
  lhsBatch := []
  rhsBatch := []
  wf := dot_S2048x512_S512x462_S2048x462_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S512x462.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S2048x462.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x512 : Shape := ⟨2, ![65536, 512]⟩
abbrev S512x462 : Shape := ⟨2, ![512, 462]⟩
abbrev S_ : Shape := ⟨0, ![]⟩
abbrev S65536 : Shape := ⟨1, ![65536]⟩
abbrev S65536x1 : Shape := ⟨2, ![65536, 1]⟩
abbrev S512 : Shape := ⟨1, ![512]⟩
abbrev S512x1 : Shape := ⟨2, ![512, 1]⟩
abbrev S65536x462 : Shape := ⟨2, ![65536, 462]⟩

abbrev nBuf : Space → Nat
  | .hbm => 23
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S512x462, .f32⟩
  | .hbm, ⟨2, _⟩ => ⟨S65536x512, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S_, .f32⟩
  | .hbm, ⟨7, _⟩ => ⟨S65536x1, .f32⟩
  | .hbm, ⟨8, _⟩ => ⟨S65536x1, .f32⟩
  | .hbm, ⟨9, _⟩ => ⟨S65536x1, .f32⟩
  | .hbm, ⟨10, _⟩ => ⟨S65536x512, .f32⟩
  | .hbm, ⟨11, _⟩ => ⟨S65536x512, .f32⟩
  | .hbm, ⟨12, _⟩ => ⟨S512x462, .f32⟩
  | .hbm, ⟨13, _⟩ => ⟨S_, .f32⟩
  | .hbm, ⟨14, _⟩ => ⟨S512, .f32⟩
  | .hbm, ⟨15, _⟩ => ⟨S512x1, .f32⟩
  | .hbm, ⟨16, _⟩ => ⟨S_, .f32⟩
  | .hbm, ⟨17, _⟩ => ⟨S512x1, .f32⟩
  | .hbm, ⟨18, _⟩ => ⟨S512x1, .f32⟩
  | .hbm, ⟨19, _⟩ => ⟨S512x1, .f32⟩
  | .hbm, ⟨20, _⟩ => ⟨S512x462, .f32⟩
  | .hbm, ⟨21, _⟩ => ⟨S512x462, .f32⟩
  | .hbm, ⟨22, _⟩ => ⟨S65536x462, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S65536x512_S65536_d1 : S65536x512.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x512_0_1 : S65536x1.BroadcastsInDim S65536x512 (![0, 1] : Fin 2 → Fin S65536x512.rank)
  reducesTo_S512x462_S512_d1 : S512x462.ReducesTo [1] S512
  bcast_S512_S512x1_0 : S512.BroadcastsInDim S512x1 (![0] : Fin 1 → Fin S512x1.rank)
  bcast_S_S512x1 : S_.BroadcastsInDim S512x1 (![] : Fin 0 → Fin S512x1.rank)
  bcast_S512x1_S512x462_0_1 : S512x1.BroadcastsInDim S512x462 (![0, 1] : Fin 2 → Fin S512x462.rank)
  dot_S65536x512_S512x462_S65536x462_1_0_0_1_n_n_wf : DotDims.WF S65536x512 S512x462 S65536x462 [1] [0] [0] [1] [] []

variable [Facts₀]

def dot_S65536x512_S512x462_S65536x462_1_0_0_1_n_n : DotDims S65536x512 S512x462 S65536x462 where
  lhsContracting := [1]
  rhsContracting := [0]
  lhsNonContracting := [0]
  rhsNonContracting := [1]
  lhsBatch := []
  rhsBatch := []
  wf := dot_S65536x512_S512x462_S65536x462_1_0_0_1_n_n_wf

class Facts : Prop extends Facts₀ where

variable [Facts]
-- ==== Proof.LibColumnLayout.lean ====
/-
  A column kept as a trailing unit axis, read at an index given by coordinates.

  A sum along the last axis with the reduced axis kept has shape `[a, 1]`: a vector's value for row `p` sits at
  `(p, 0)`. Two layout steps surround such a column: the cast of an `[a]` vector to the `[a, 1]` column (entry `(p, u)`
  is the vector's entry `p`, since the row-major position `p · 1 + u` is `p`), and the broadcast of the column along a
  new last axis of length `b` (entry `(p, c)` is the column's entry `(p, 0)`, whatever `c`). Both are stated for any
  element type and any extents, over indices written by coordinates.
-/
import Idealize.ShloMosaic.Lib.Pipeline.Value
import Idealize.ShloMosaic.Lib.ValueIdx

namespace Idealize.ShloMosaic.ValueIdx

open Idealize.ShloMosaic

variable {α : Type}

/-- An `[a]` vector cast to the `[a, 1]` column reads, at `(p, u)`, the vector at `p`: the unit coordinate `u` is `0`, so
    both row-major positions are `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry for row `p`: the row coordinate is
    kept (when `a = 1` it is `0` either way), the unit axis reads its only entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Spec.lean ====
/-
  What both programs compute, as one function of the two argument arrays.

  Each row of `x` (65536 rows of 512) is scaled to unit Euclidean length, the squared length clamped from below by a
  small positive floor before the inverse square root is taken; the result is that scaled array times a second array
  `wn` of shape `[512, 462]` (in both programs the rows of `W` scaled the same way, computed before the product and the
  same term on both sides, so it stays a variable here):

      cosines x wn (r, o) = ∑ k, x(r, k) · (max (∑ j, x(r, j)²) floor)^(-1/2) · wn(k, o).

  On the extended reals the sum over a finite index type does not depend on an order or a grouping, so a tiling of the
  rows changes nothing, and no step here needs the entries to be finite.
-/
import Idealize.ShloMosaic.PureOps.Ideal
import Idealize.ShloMosaic.Lib.ValueIdx

noncomputable section

open Idealize.ShloMosaic Idealize.ShloMosaic.ValueIdx

namespace Cert.RowCosine

/-- The shapes of `x`, of the second factor and of the result. -/
abbrev SX : Shape := ⟨2, ![65536, 512]⟩
abbrev SW : Shape := ⟨2, ![512, 462]⟩
abbrev SY : Shape := ⟨2, ![65536, 462]⟩

/-- The lower clamp on a squared length: the f32 word both programs print for it (about `1e-12`). -/
abbrev floor : EReal := Ideal.ofBits .f32 0x2B8CBCCC#32

/-- The factor that brings a row whose squares sum to `s` to unit length: `(max s floor)^(-1/2)`. -/
def unitFactor (s : EReal) : EReal := Ideal.rsqrt (max s floor)

/-- Entry `(r, k)` of `x` with row `r` scaled to unit length. -/
def unitRow (x : SX.Idx → EReal) (r : Fin 65536) (k : Fin 512) : EReal :=
  x (ix2 r k) * unitFactor (∑ j : Fin 512, x (ix2 r j) * x (ix2 r j))

/-- The row-normalised `x` times `wn`, entry by entry. -/
def cosines (x : SX.Idx → EReal) (wn : SW.Idx → EReal) : SY.Idx → EReal :=
  fun i => ∑ k : Fin 512, unitRow x (i 0) k * wn (ix2 k (i 1))

end Cert.RowCosine

end
-- ==== Proof.BlockValue.lean ====
/-
  What the kernel body stores for one block of rows.

  The body loads a `[2048, 512]` block `x0` of `x` and the whole `[512, 462]` second factor `x1`. It sums the squares
  along each row of `x0`, keeps the sums as a `[2048, 1]` column, clamps the column from below by the floor, takes the
  inverse square root, spreads the column back along the rows and multiplies it into `x0`: entry `(p, k)` of the scaled
  block is `x0(p, k) · unitFactor (∑ j, x0(p, j)²)`. The change of float format that follows is the identity on the
  extended reals. The matrix product into a zero accumulator is then, at `(p, q)`, the sum over the contracted index
  `k` of the scaled block at `(p, k)` times `x1(k, q)`.

  If the block is rows `b · 2048 …` of an array `X` and `x1` is an array `Wn`, the row sums of the block are the row
  sums of `X`, so the stored entry `(p, q)` is `cosines X Wn` at row `b · 2048 + p`, column `q`.
-/
import proofs.«424130_j64570538328854_3_alg».proof.Proof.Gen.KernelIdeal.Skeleton
import proofs.«424130_j64570538328854_3_alg».proof.Proof.LibColumnLayout
import proofs.«424130_j64570538328854_3_alg».proof.Proof.Spec
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.KernelIdeal.Block

open Cert.KernelIdeal Cert.KernelIdeal.Gen Cert.RowCosine

variable {F : FTy → Type} [FloatOps F]

/-- The loaded block with each row scaled to unit length, as the body computes it. -/
def scaledBlock (x0 : FVec F S2048x512 .f32) : FVec F S2048x512 .f32 :=
  mulf x0 (broadcastTo S2048x512 (rsqrt (maximumf
    (shapeCast S2048x1 (multiReduction .add [1] S2048 (mulf x0 x0) 0x00000000#32 reduces_S2048x512_S2048 (.inl rfl) rfl) shapeCasts_S2048_S2048x1)
    (broadcast S2048x1 (Scalar.ofBits .f32 0x2B8CBCCC#32)))) broadcasts_S2048x1_S2048x512)

/-- The stored value is the product of the scaled block (its format changed) with the second factor, into zeros. -/
theorem payload_eq (x0 : FVec F S2048x512 .f32) (x1 : FVec F S512x462 .bf16) :
    k0_pay1 x0 x1 = matmul dot_S2048x512_S512x462_S2048x462_1_0_0_1_n_n none (truncf .bf16 (scaledBlock x0) bitsLt_bf16_f32)
      (shapeCast S512x462 x1 shapeCasts_S512x462_S512x462) (constant S2048x462 .f32 0x00000000#32) := rfl

/-- Entry `(p, k)` of the scaled block: the block's entry times the unit factor of its row's squared length. -/
theorem scaledBlock_apply (x0 : FVec Ideal S2048x512 .f32) (p : Fin 2048) (k : Fin 512) :
    scaledBlock x0 (ix2 p k) = x0 (ix2 p k) * unitFactor (∑ j : Fin 512, x0 (ix2 p j) * x0 (ix2 p j)) := by
  unfold scaledBlock
  show x0 (ix2 p k) * broadcastTo S2048x512 _ broadcasts_S2048x1_S2048x512 (ix2 p k) = _
  refine congrArg (x0 (ix2 p k) * ·) ?_
  refine (broadcastTo_a1_ab_apply _ broadcasts_S2048x1_S2048x512 p k).trans ?_
  show Ideal.rsqrt (max (shapeCast S2048x1 _ shapeCasts_S2048_S2048x1 (ix2 p (0 : Fin 1))) (Ideal.ofBits .f32 0x2B8CBCCC#32)) = _
  unfold unitFactor
  refine congrArg (fun s => Ideal.rsqrt (max s floor)) ?_
  refine (shapeCast_a_a1_apply _ shapeCasts_S2048_S2048x1 p 0).trans ?_
  refine (Ideal.multiReduction_add_single (mulf x0 x0) 0x00000000#32 reduces_S2048x512_S2048 (.inl rfl) rfl (ix1 p)).trans ?_
  refine Finset.sum_congr rfl fun j _ => ?_
  have e : reduces_S2048x512_S2048.lift (ix1 p) j = ix2 p j :=
    funext fun a => Fin.ext (by match a with | ⟨0, _⟩ => rfl | ⟨1, _⟩ => rfl)
  rw [e]
  rfl

/-! The product's operand indices at output index `i` and contraction index `q`: the left operand is read at
    `(i 0, q)`, the right at `(q, i 1)`. -/

theorem lhs_row (i : S2048x462.Idx) (q : dot_S2048x512_S512x462_S2048x462_1_0_0_1_n_n.contr.Idx) :
    (dot_S2048x512_S512x462_S2048x462_1_0_0_1_n_n.lhsIdx i q 0).val = (i 0).val := by
  unfold DotDims.lhsIdx
  rw [dif_neg (show ¬(0 : Fin S2048x512.rank) ∈ dot_S2048x512_S512x462_S2048x462_1_0_0_1_n_n.lhsBatch by decide), dif_pos (show (0 : Fin S2048x512.rank) ∈ dot_S2048x512_S512x462_S2048x462_1_0_0_1_n_n.lhsNonContracting by decide)]
  rfl
theorem lhs_col (i : S2048x462.Idx) (q : dot_S2048x512_S512x462_S2048x462_1_0_0_1_n_n.contr.Idx) :
    (dot_S2048x512_S512x462_S2048x462_1_0_0_1_n_n.lhsIdx i q 1).val = (q ⟨0, by decide⟩).val :=
  dot_S2048x512_S512x462_S2048x462_1_0_0_1_n_n.lhsIdx_val_of_single rfl i q
theorem rhs_row (i : S2048x462.Idx) (q : dot_S2048x512_S512x462_S2048x462_1_0_0_1_n_n.contr.Idx) :
    (dot_S2048x512_S512x462_S2048x462_1_0_0_1_n_n.rhsIdx i q 0).val = (q ⟨0, by decide⟩).val :=
  dot_S2048x512_S512x462_S2048x462_1_0_0_1_n_n.rhsIdx_val_of_single rfl i q
theorem rhs_col (i : S2048x462.Idx) (q : dot_S2048x512_S512x462_S2048x462_1_0_0_1_n_n.contr.Idx) :
    (dot_S2048x512_S512x462_S2048x462_1_0_0_1_n_n.rhsIdx i q 1).val = (i 1).val := by
  unfold DotDims.rhsIdx
  rw [dif_neg (show ¬(1 : Fin S512x462.rank) ∈ dot_S2048x512_S512x462_S2048x462_1_0_0_1_n_n.rhsBatch by decide), dif_pos (show (1 : Fin S512x462.rank) ∈ dot_S2048x512_S512x462_S2048x462_1_0_0_1_n_n.rhsNonContracting by decide)]
  rfl

/-- The stored entry `(p, q)`: the sum over `k` of the scaled block at `(p, k)` times the second factor at `(k, q)`. -/
theorem payload_apply (x0 : FVec Ideal S2048x512 .f32) (x1 : FVec Ideal S512x462 .bf16) (p : Fin 2048) (q : Fin 462) :
    k0_pay1 (F := Ideal) x0 x1 (ix2 p q) = ∑ k : Fin 512, scaledBlock x0 (ix2 p k) * x1 (ix2 k q) := by
  rw [payload_eq, shapeCast_self]
  refine (Ideal.matmul_constant_zero_apply dot_S2048x512_S512x462_S2048x462_1_0_0_1_n_n none _ _ (ix2 p q)).trans ?_
  rw [← Equiv.sum_comp (contrEquiv1 dot_S2048x512_S512x462_S2048x462_1_0_0_1_n_n 512 rfl rfl).symm]
  refine Finset.sum_congr rfl fun k _ => ?_
  have hk := contrEquiv1_symm_val dot_S2048x512_S512x462_S2048x462_1_0_0_1_n_n 512 rfl rfl k
  have el : dot_S2048x512_S512x462_S2048x462_1_0_0_1_n_n.lhsIdx (ix2 p q) ((contrEquiv1 dot_S2048x512_S512x462_S2048x462_1_0_0_1_n_n 512 rfl rfl).symm k) = ix2 p k := funext fun a => Fin.ext (by
    match a with
    | ⟨0, _⟩ => exact lhs_row _ _
    | ⟨1, _⟩ => exact (lhs_col _ _).trans hk)
  have er : dot_S2048x512_S512x462_S2048x462_1_0_0_1_n_n.rhsIdx (ix2 p q) ((contrEquiv1 dot_S2048x512_S512x462_S2048x462_1_0_0_1_n_n 512 rfl rfl).symm k) = ix2 k q := funext fun a => Fin.ext (by
    match a with
    | ⟨0, _⟩ => exact (rhs_row _ _).trans hk
    | ⟨1, _⟩ => exact rhs_col _ _)
  rw [el, er]
  rfl

/-- If the loaded block is rows `b · 2048 …` of `X` (`hx`) and the second factor is `Wn` (`hw`), the stored entry at
    block index `y` is `cosines X Wn` at the array index `i` with row `b · 2048 + y 0` and column `y 1`. -/
theorem block_entry (X : FVec Ideal SX .f32) (Wn : FVec Ideal SW .bf16)
    (x0 : FVec Ideal S2048x512 .f32) (x1 : FVec Ideal S512x462 .bf16) (b : ℕ)
    (hx : ∀ (p : Fin 2048) (k : Fin 512) (i : SX.Idx), (i 0).val = b * 2048 + p.val → (i 1).val = k.val → x0 (ix2 p k) = X i)
    (hw : ∀ (k : Fin 512) (q : Fin 462), x1 (ix2 k q) = Wn (ix2 k q))
    (y : S2048x462.Idx) (i : SY.Idx) (hi0 : (i 0).val = b * 2048 + (y 0).val) (hi1 : (i 1).val = (y 1).val) :
    k0_pay1 (F := Ideal) x0 x1 y = cosines X Wn i := by
  obtain ⟨p, q, rfl⟩ : ∃ (p : Fin 2048) (q : Fin 462), y = ix2 p q := ⟨y 0, y 1, eq_ix2 y⟩
  obtain ⟨r, o, rfl⟩ : ∃ (r : Fin 65536) (o : Fin 462), i = ix2 r o := ⟨i 0, i 1, eq_ix2 i⟩
  have hr : r.val = b * 2048 + p.val := hi0
  obtain rfl : o = q := Fin.ext hi1
  have hs : ∀ j : Fin 512, x0 (ix2 p j) = X (ix2 r j) := fun j => hx p j (ix2 r j) hr rfl
  rw [payload_apply]
  show _ = ∑ k : Fin 512, unitRow X r k * Wn (ix2 k o)
  refine Finset.sum_congr rfl fun k _ => ?_
  rw [scaledBlock_apply, hw k o]
  unfold unitRow
  simp only [hs]

end Cert.KernelIdeal.Block

end
-- ==== Proof.KernelValue.lean ====
/-
  The idealized kernel's result array is `cosines` of its first argument and of the reference's normalised second
  argument.

  The grid has 32 points; point `t` stages rows `2048 t … 2048 t + 2047` of `x` (all 512 columns), the whole normalised
  second factor (block index `(0, 0)` at every point), and writes back rows `2048 t …` of the result (all 462 columns).
  So what point `t` writes back is block `t` of `cosines` of the two arrays the region finds (`block_entry` at block
  row `t`), the 32 blocks cover every row (`r` lies in block `r / 2048`), and the result array ends holding `cosines`.
  The second array the region finds was written by the host operations before it — the rows of `W` scaled to unit
  length, operation for operation what the reference computes, then a change of float format, the identity on the
  extended reals — so it is the reference's own normalised `W` of the second argument.
-/
import proofs.«424130_j64570538328854_3_alg».proof.Proof.Gen.KernelIdeal.Value
import proofs.«424130_j64570538328854_3_alg».proof.Proof.Gen.ReferenceIdeal.Read
import proofs.«424130_j64570538328854_3_alg».proof.Proof.BlockValue
import Idealize.ShloMosaic.Lib.StableHlo.Run

noncomputable section

open Idealize.ShloMosaic Idealize.ShloMosaic.TcCoe Idealize.ShloMosaic.ValueIdx Idealize.SL.Sem
open Idealize.ShloMosaic.Pipeline (Dat)

namespace Cert.KernelIdeal.Whole

open Cert.KernelIdeal Cert.KernelIdeal.Gen Cert.KernelIdeal.Value Cert.KernelIdeal.Block Cert.RowCosine

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the 32 grid points: the `x` window and the result window sit at block row `t`, block
    column `0`; the second factor's window at block `(0, 0)`. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The two arrays the region finds, at their literal types. -/
abbrev xArr (c : Dev nD) : FVec Ideal S65536x512 .f32 := V m c main_arg0
abbrev wnArr (c : Dev nD) : FVec Ideal S512x462 .bf16 := V m c main_v8

/-- The `x` window's block at point `t` is rows `2048 t …` of the array. -/
theorem xblock_apply (c : Dev nD) (t : Fin cfg0.N) (p : Fin 2048) (k : Fin 512) (i : S65536x512.Idx)
    (hi0 : (i 0).val = t.val * 2048 + p.val) (hi1 : (i 1).val = k.val) :
    (iblk m c 0 t : FVec Ideal S2048x512 .f32) (ix2 p k) = xArr m c i := by
  obtain ⟨e0, e1, -⟩ := block_indices t
  unfold iblk
  rw [View.read_apply]
  show V m c main_arg0 _ = V m c main_arg0 i
  congr 1
  funext a
  apply Fin.ext
  match a with
  | ⟨0, _⟩ => show win0_0.index t (0 : Fin 2) * 2048 + 1 * p.val = (i 0).val; rw [e0, hi0]; omega
  | ⟨1, _⟩ => show win0_0.index t (1 : Fin 2) * 512 + 1 * k.val = (i 1).val; rw [e1, hi1]; omega

/-- The second factor's window holds the whole array at every point. -/
theorem wblock_apply (c : Dev nD) (t : Fin cfg0.N) (k : Fin 512) (q : Fin 462) :
    (iblk m c 1 t : FVec Ideal S512x462 .bf16) (ix2 k q) = wnArr m c (ix2 k q) := by
  obtain ⟨-, -, e2, e3, -⟩ := block_indices t
  unfold iblk
  rw [View.read_apply]
  show V m c main_v8 _ = V m c main_v8 (ix2 k q)
  congr 1
  funext a
  apply Fin.ext
  match a with
  | ⟨0, _⟩ => show win0_1.index t (0 : Fin 2) * 512 + 1 * k.val = k.val; rw [e2]; omega
  | ⟨1, _⟩ => show win0_1.index t (1 : Fin 2) * 462 + 1 * q.val = q.val; rw [e3]; omega

/-- What point `t` writes back is block `t` of `cosines` of the two arrays the region finds. -/
theorem flushed_eq (c : Dev nD) (t : Fin cfg0.N) :
    (dats m 0 c).flushed 2 t = ((cfg0.win 2).blk t).view.read (Elt Ideal) (cosines (xArr m c) (wnArr m c)) := by
  obtain ⟨-, -, -, -, e4, e5⟩ := block_indices t
  rw [flushed2]
  unfold out0_2
  rw [View.canon_unit_zero zero_offsets]
  simp only [View.ld_unit_zero (S := S2048x512) zero_offsets, View.ld_unit_zero (S := S512x462) zero_offsets]
  funext j
  show _ = cosines (xArr m c) (wnArr m c) (((cfg0.win 2).blk t).view.emb j)
  have hj0 : (j 0).val < 2048 := (j 0).isLt
  have hj1 : (j 1).val < 462 := (j 1).isLt
  refine block_entry (xArr m c) (wnArr m c) (iblk m c 0 t) (iblk m c 1 t) t.val
    (fun p k i h0 h1 => xblock_apply m c t p k i h0 h1) (fun k q => wblock_apply m c t k q)
    ((cfg0.win 2).xinj (grid0.coords t) j) (((cfg0.win 2).blk t).view.emb j) ?_ ?_
  · show win0_2.index t (0 : Fin 2) * 2048 + 1 * (j 0).val = t.val * 2048 + (j 0).val; rw [e4]; omega
  · show win0_2.index t (1 : Fin 2) * 462 + 1 * (j 1).val = (j 1).val; rw [e5]; omega

/-- An index of the result array is in point `t`'s block iff each coordinate is in the block's range on its axis. -/
theorem mem_block (t : Fin cfg0.N) (i : S65536x462.Idx) :
    i ∈ ((cfg0.win 2).blk t).view.set ↔ ∀ a : Fin 2, win0_2.index t a * S2048x462.size a ≤ (i a).val ∧ (i a).val < win0_2.index t a * S2048x462.size a + S2048x462.size a := by
  show i ∈ ((View.whole main_v9).slice (win0_2.rect t)).set ↔ _
  rw [View.set_slice_whole, Rect.mem_set_unit]
  exact Iff.rfl

/-- Every index of the result array is in the block of the point its row falls in. -/
theorem covered (i : S65536x462.Idx) :
    ∃ t : Fin cfg0.N, (cfg0.win 2).flush t = true ∧ i ∈ ((cfg0.win 2).blk t).view.set := by
  have hi0 : (i 0).val < 65536 := (i 0).isLt
  have hi1 : (i 1).val < 462 := (i 1).isLt
  have hN : cfg0.N = 32 := N_0
  obtain ⟨t, ht⟩ : ∃ t : Fin cfg0.N, t.val = (i 0).val / 2048 := ⟨⟨(i 0).val / 2048, by rw [hN]; omega⟩, rfl⟩
  obtain ⟨-, -, -, -, e4, e5⟩ := block_indices t
  refine ⟨t, flush0_2 t, ?_⟩
  rw [mem_block]
  intro a
  match a with
  | ⟨0, _⟩ => show win0_2.index t (0 : Fin 2) * 2048 ≤ (i 0).val ∧ (i 0).val < win0_2.index t (0 : Fin 2) * 2048 + 2048; rw [e4, ht]; omega
  | ⟨1, _⟩ => show win0_2.index t (1 : Fin 2) * 462 ≤ (i 1).val ∧ (i 1).val < win0_2.index t (1 : Fin 2) * 462 + 462; rw [e5]; omega

/-- So the result array ends holding `cosines` of the two arrays the region finds. -/
theorem final (c : Dev nD) : (dats m 0 c).arrAt 2 cfg0.N = cosines (xArr m c) (wnArr m c) :=
  (dats m 0 c).arrAt_eq_of_cover 2 (cosines (xArr m c) (wnArr m c)) (fun t _ => flushed_eq m c t) covered

/-- The first array the region finds is the first argument. -/
theorem xArr_eq (c : Dev nD) : xArr m c = m ((c : Thread nD τ).loc main_arg0) := V_main_arg0 m c

/-- The second array the region finds is what the host operations before the region wrote: the reference's normalised
    `W` of the second argument (the same operations, then a change of format). -/
theorem wnArr_eq (c : Dev nD) :
    wnArr m c = Cert.ReferenceIdeal.Read.val_main_v15 (F := Ideal) (m ((c : Thread nD τ).loc main_arg1)) := by
  show V m c main_v8 = _
  dsimp only [V, hostOps0]
  after_results
  rfl

/-- The run, read: the result array at `cosines` of the first argument and the normalised second, the arguments
    unchanged. -/
theorem run : θ_run defs (onTc (τ := τ) (main (F := Ideal))) ⟨m, fun _ => 0, ρ⟩ fun r => ∀ c : Dev nD,
      r.2.mem ((c : Thread nD τ).loc main_v9) = cosines (m ((c : Thread nD τ).loc main_arg0))
        (Cert.ReferenceIdeal.Read.val_main_v15 (F := Ideal) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨by rw [(h c).1, final, xArr_eq, wnArr_eq], (h c).2⟩)
    (run_blocks m ρ)

end Cert.KernelIdeal.Whole

end
-- ==== Proof.RefValue.lean ====
/-
  The reference's result is `cosines` of its first argument and of its own row-normalised second argument.

  The reference scales the rows of `x` by host operations: the squares summed along each row from the initial value
  `0`, the sum kept as a column, clamped from below by the floor, the inverse square root taken, the column spread back
  over the row and multiplied in. Read at `(r, k)` that is `x(r, k) · unitFactor (0 + ∑ j, x(r, j)²)`, and `0 + s = s`
  on the extended reals, so it is `unitRow x r k`. Its `dot_general` contracts axis 1 of that array with axis 0 of the
  normalised `W`: at `(r, o)` the sum over `k` of the two entries `(r, k)` and `(k, o)`, which is `cosines`.
-/
import proofs.«424130_j64570538328854_3_alg».proof.Proof.Gen.ReferenceIdeal.Read
import proofs.«424130_j64570538328854_3_alg».proof.Proof.Spec

noncomputable section

open Idealize.ShloMosaic Idealize.ShloMosaic.ValueIdx

namespace Cert.ReferenceIdeal.RefValue

open Cert.ReferenceIdeal Cert.ReferenceIdeal.Gen Cert.ReferenceIdeal.Read Cert.RowCosine

/-- The reference's scaled `x` at `(r, k)` is the entry of the unit-length row. -/
theorem scaled_x_apply (x : FVec Ideal S65536x512 .f32) (r : Fin 65536) (k : Fin 512) :
    val_main_v7 (F := Ideal) x (ix2 r k) = unitRow x r k := by
  have e : ∀ j : Fin 512, idx_main_v1 (idx_main_v2 (idx_main_v6 (ix2 r k))) j = ix2 r j := fun j =>
    funext fun a => Fin.ext (by match a with | ⟨0, _⟩ => rfl | ⟨1, _⟩ => rfl)
  rw [val_main_v7_apply, val_main_v6_apply, val_main_v5_apply, val_main_v4_apply, val_main_v2_apply, val_main_v1_apply,
    val_main_v3_apply, val_main_cst_0_apply, val_main_cst_apply]
  simp only [val_main_v0_apply, e, Ideal.mulf_def, Ideal.maximumf_def, Ideal.hostUnary_rsqrt_def, Ideal.ofBits_def,
    Ideal.ofBits_zero_f32, zero_add]
  rfl

/-- The reference's result array is `cosines` of `x` and the normalised `W`: the product's entry `(r, o)` is the sum over
    `k` of the scaled `x` at `(r, k)` times the normalised `W` at `(k, o)`. -/
theorem result_eq (x : FVec Ideal S65536x512 .f32) (w : FVec Ideal S512x462 .f32) :
    val_main_v16 (F := Ideal) x w = cosines x (val_main_v15 (F := Ideal) w) := by
  funext i
  obtain ⟨r, o, rfl⟩ : ∃ (r : Fin 65536) (o : Fin 462), i = ix2 r o := ⟨i 0, i 1, eq_ix2 i⟩
  have el : ∀ k : Fin 512, lidx_main_v16 (ix2 r o) k = ix2 r k := fun k =>
    funext fun a => Fin.ext (by match a with | ⟨0, _⟩ => rfl | ⟨1, _⟩ => rfl)
  have er : ∀ k : Fin 512, ridx_main_v16 (ix2 r o) k = ix2 k o := fun k =>
    funext fun a => Fin.ext (by match a with | ⟨0, _⟩ => rfl | ⟨1, _⟩ => rfl)
  rw [val_main_v16_apply]
  show _ = ∑ k : Fin 512, unitRow x r k * val_main_v15 (F := Ideal) w (ix2 k o)
  refine Finset.sum_congr rfl fun k _ => ?_
  rw [el, er, scaled_x_apply]

end Cert.ReferenceIdeal.RefValue

end
-- ==== Proof.lean ====
/-
  Cosine similarities of the rows of `x` with the rows-normalised `W`: a kernel tiled over blocks of 2048 rows against
  one whole matrix product.

  Both programs scale each row of `x` (65536 × 512) to unit Euclidean length, the squared length clamped from below
  by the same small floor before the inverse square root, scale each row of `W` (512 × 462) the same way, and multiply
  the two scaled arrays. The reference does all of it on whole arrays. The kernel scales `W` on whole arrays first, with
  the reference's own operations, and then, for each of 32 blocks of 2048 rows of `x`, scales the block's rows and
  multiplies the block with the scaled `W`, writing the matching 2048 rows of the result.

  On the extended reals the two are one function of the arguments, entry by entry:

      result(r, o) = ∑ k, x(r, k) · (max (∑ j, x(r, j)²) floor)^(-1/2) · Wn(k, o),

  because a row's sum of squares is the same whether the row is read in the array or in its block, the sum that
  starts from the initial value `0` is the plain sum (`0 + s = s`), a product into a zero accumulator is the plain sum of
  products, and a change of float format is the identity. Nothing needs the entries to be finite: no term is moved
  across a sum and nothing is cancelled.

  The modules: `Spec` states the function; `RefValue` reads the reference's run as it; `BlockValue` reads what the
  kernel body stores for one block; `KernelValue` carries the blocks to the whole result array and identifies the
  scaled `W` of the two programs; here the claims are assembled. The idealized kernel's text is the kernel's own
  read on the extended reals (no rewrite was applied), so that conjunct holds trivially.
-/
import proofs.«424130_j64570538328854_3_alg».proof.Defs
import proofs.«424130_j64570538328854_3_alg».proof.Proof.Gen.Kernel
import proofs.«424130_j64570538328854_3_alg».proof.Proof.Gen.Kernel.Skeleton
import proofs.«424130_j64570538328854_3_alg».proof.Proof.Gen.Kernel.Launch
import proofs.«424130_j64570538328854_3_alg».proof.Proof.Gen.Kernel.Points
import proofs.«424130_j64570538328854_3_alg».proof.Proof.Gen.Kernel.Frame
import proofs.«424130_j64570538328854_3_alg».proof.Proof.Gen.KernelIdeal
import proofs.«424130_j64570538328854_3_alg».proof.Proof.Gen.KernelIdeal.Skeleton
import proofs.«424130_j64570538328854_3_alg».proof.Proof.Gen.KernelIdeal.Launch
import proofs.«424130_j64570538328854_3_alg».proof.Proof.Gen.KernelIdeal.Points
import proofs.«424130_j64570538328854_3_alg».proof.Proof.Gen.KernelIdeal.Frame
import proofs.«424130_j64570538328854_3_alg».proof.Proof.Gen.ReferenceIdeal
import proofs.«424130_j64570538328854_3_alg».proof.Proof.Gen.Pre_finite_inputs
import proofs.«424130_j64570538328854_3_alg».proof.Proof.Gen.KernelIdeal.Value
import proofs.«424130_j64570538328854_3_alg».proof.Proof.Gen.ReferenceIdeal.Run
import proofs.«424130_j64570538328854_3_alg».proof.Proof.Gen.ReferenceIdeal.Read
import proofs.«424130_j64570538328854_3_alg».proof.Proof.KernelValue
import proofs.«424130_j64570538328854_3_alg».proof.Proof.RefValue
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, both programs end with the result array at `cosines` of the first argument and the
    normalised second: the kernel's blocks assembled (`Whole.run`), the reference's run read (`RefValue.result_eq`). -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v16_eq _ _).trans (Cert.ReferenceIdeal.RefValue.result_eq _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
